-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S5000x1 : Shape := ⟨2, ![5000, 1]⟩
abbrev S1x128 : Shape := ⟨2, ![1, 128]⟩
abbrev S100000x40 : Shape := ⟨2, ![100000, 40]⟩
abbrev S5000x40 : Shape := ⟨2, ![5000, 40]⟩
abbrev S1600000x40 : Shape := ⟨2, ![1600000, 40]⟩
abbrev S1x40 : Shape := ⟨2, ![1, 40]⟩

abbrev nBuf : Space → Nat
  | .hbm => 77
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x1, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S100000x40, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x40, .f32⟩
  | .hbm, ⟨69, _⟩ => ⟨S1600000x1, .f32⟩
  | .hbm, ⟨70, _⟩ => ⟨S1600000x40, .f32⟩
  | .hbm, ⟨71, _⟩ => ⟨S1600000x40, .f32⟩
  | .hbm, ⟨72, _⟩ => ⟨S_, .f32⟩
  | .hbm, ⟨73, _⟩ => ⟨S100000x40, .f32⟩
  | .hbm, ⟨74, _⟩ => ⟨S1600000x1, .i32⟩
  | .hbm, ⟨75, _⟩ => ⟨S100000x40, .f32⟩
  | .hbm, ⟨76, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x40, .f32⟩
  | .local _ .vmem, ⟨17, _⟩ => ⟨S5000x40, .f32⟩
  | .local _ .vmem, ⟨18, _⟩ => ⟨S5000x40, .f32⟩
  | .local _ .vmem, ⟨19, _⟩ => ⟨S5000x40, .f32⟩
  | .local _ .vmem, ⟨20, _⟩ => ⟨S5000x40, .f32⟩
  | .local _ .vmem, ⟨21, _⟩ => ⟨S5000x40, .f32⟩
  | .local _ .vmem, ⟨22, _⟩ => ⟨S5000x40, .f32⟩
  | .local _ .vmem, ⟨23, _⟩ => ⟨S5000x1, .f32⟩
  | .local _ .vmem, ⟨24, _⟩ => ⟨S5000x1, .f32⟩
  | .local _ .vmem, ⟨25, _⟩ => ⟨S40, .f32⟩
  | .local _ .vmem, ⟨26, _⟩ => ⟨S5000x40, .f32⟩
  | .local _ .vmem, ⟨27, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S5000x40_S5000x40 : S5000x40.ShapeCasts S5000x40
  broadcasts_S5000x1_S5000x40 : S5000x1.Broadcasts S5000x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x40.size a ≤ S100000x40.size a
  hwx3_1 : ∀ i : grid3.Coords, EltTy.bits .f32 = 32 ∨ (Rect.block (s := S100000x40) S5000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S40.size a ≤ S40.size a
  hwx3_3 : ∀ i : grid3.Coords, EltTy.bits .f32 = 32 ∨ (Rect.block (s := S40) S40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x40.size a ≤ S100000x40.size a
  hwx3_4 : ∀ i : grid3.Coords, EltTy.bits .f32 = 32 ∨ (Rect.block (s := S100000x40) S5000x40.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S5000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S100000, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S1600000x1, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x40, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x40, .f32⟩
  | .hbm, ⟨81, _⟩ => ⟨S1600000x1, .f32⟩
  | .hbm, ⟨82, _⟩ => ⟨S1600000x40, .f32⟩
  | .hbm, ⟨83, _⟩ => ⟨S1600000x40, .f32⟩
  | .hbm, ⟨84, _⟩ => ⟨S_, .f32⟩
  | .hbm, ⟨85, _⟩ => ⟨S100000x40, .f32⟩
  | .hbm, ⟨86, _⟩ => ⟨S1600000x1, .i32⟩
  | .hbm, ⟨87, _⟩ => ⟨S100000x40, .f32⟩
  | .hbm, ⟨88, _⟩ => ⟨S100000x1, .f32⟩
  | .hbm, ⟨89, _⟩ => ⟨S100000x40, .f32⟩
  | .hbm, ⟨90, _⟩ => ⟨S100000x40, .f32⟩
  | .hbm, ⟨91, _⟩ => ⟨S100000x40, .f32⟩
  | .hbm, ⟨92, _⟩ => ⟨S1x40, .f32⟩
  | .hbm, ⟨93, _⟩ => ⟨S100000x40, .f32⟩
  | .hbm, ⟨94, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call0_cst : Ref sig .tc := ⟨.hbm, 68, rfl⟩
abbrev main_call0_v0 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_v55 : Ref sig .tc := ⟨.hbm, 74, rfl⟩
abbrev main_c_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.Spec.lean ====
/-
  A two-layer graph convolution over 100000 nodes and 1600000 directed edges, as one composition of whole-array
  functions.

  From the edge list e (row 0 the sources s, row 1 the targets d):
    deg    = 1 + (number of edges into each node)            (a scatter-add of ones along d)
    r      = deg^(-1/2)
    w_edge = r[s] · r[d]                                       (one weight per edge)
    w_self = r · r                                             (one weight per node)
  and one layer, for node features Y = X·W:
    agg    = scatter-add along d of  Y[s] · w_edge             (the neighbours' messages)
    conv   = (agg + Y · w_self) + b                            (w_self down the rows, b across the columns)
  The network is conv₂(relu(conv₁(x·W₁))·W₂) with relu v = max v 0.

  Every function below is spelt with exactly the host operations the reference program applies, so that the
  reference's result term is their composition by unfolding alone (`ref_eq`).
-/
import proofs.«130058_j61048665145867_1_alg».proof.Proof.Gen.ReferenceIdeal.Run

noncomputable section

namespace Cert.Gcn

open Cert.ReferenceIdeal Cert.ReferenceIdeal.Gen Idealize.ShloMosaic Idealize.SL.Sem

variable {F : FTy → Type} [FloatOps F]

/-- The edges' source nodes: row 0 of the edge list. -/
def srcOf (e : IVec S2x1600000 32) : IVec S1600000 32 :=
  shapeCast _ (extractStridedSlice S1x1600000 ![0, 0] e slices_S2x1600000_S1x1600000_0_0) shapeCasts_S1x1600000_S1600000

/-- The edges' target nodes: row 1 of the edge list. -/
def dstOf (e : IVec S2x1600000 32) : IVec S1600000 32 :=
  shapeCast _ (extractStridedSlice S1x1600000 ![1, 0] e slices_S2x1600000_S1x1600000_1_0) shapeCasts_S1x1600000_S1600000

/-- Node numbers as a column of gather positions: a negative number counts from the end (one wrap by the node count). -/
def startIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- deg^(-1/2), deg = 1 + the number of edges into the node. -/
def invSqrtDeg (d : IVec S1600000 32) : FVec F S100000 .f32 :=
  Host.rsqrt (addf (Host.scatterAdd scatter_S100000_S1600000x1_S1600000_n_0_0_1
      (broadcastInDim S100000 ![] bcast_S_S100000 (constant S_ .f32 0x00000000#32))
      (broadcastInDim S1600000x1 ![0] bcast_S1600000_S1600000x1_0 d)
      (broadcastInDim S1600000 ![] bcast_S_S1600000 (constant S_ .f32 0x3F800000#32)))
    (broadcastInDim S100000 ![] bcast_S_S100000 (constant S_ .f32 0x3F800000#32)))

/-- The weight of an edge: deg^(-1/2) of its source times deg^(-1/2) of its target. -/
def edgeNorm (s d : IVec S1600000 32) : FVec F S1600000 .f32 :=
  mulf (Host.gather gather_S100000_S1600000x1_S1600000_n_0_n_n_0_1_1 (invSqrtDeg d) (startIdx s))
    (Host.gather gather_S100000_S1600000x1_S1600000_n_0_n_n_0_1_1 (invSqrtDeg d) (startIdx d))

/-- The weight of a node's own features: 1/deg. -/
def selfNorm (d : IVec S1600000 32) : FVec F S100000 .f32 := mulf (invSqrtDeg d) (invSqrtDeg d)

/-! ## The layer of width 128 -/

/-- The neighbours' messages summed per target node. -/
def agg128 (y : FVec F S100000x128 .f32) (s d : IVec S1600000 32) (w : FVec F S1600000 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (mulf (Host.gather gather_S100000x128_S1600000x1_S1600000x128_1_0_n_n_0_1_1128 y (startIdx s))
      (broadcastInDim S1600000x128 ![0, 1] bcast_S1600000x1_S1600000x128_0_1 (broadcastInDim S1600000x1 ![0] bcast_S1600000_S1600000x1_0 w)))

/-- (agg + y · w_self) + b, the node weight down the rows and the bias across the columns. -/
def comb128 (a y : FVec F S100000x128 .f32) (ws : FVec F S100000 .f32) (b : FVec F S128 .f32) : FVec F S100000x128 .f32 :=
  addf (addf a (mulf y (broadcastInDim S100000x128 ![0, 1] bcast_S100000x1_S100000x128_0_1 (broadcastInDim S100000x1 ![0] bcast_S100000_S100000x1_0 ws))))
    (broadcastInDim S100000x128 ![0, 1] bcast_S1x128_S100000x128_0_1 (broadcastInDim S1x128 ![1] bcast_S128_S1x128_1 b))

/-- max v 0. -/
def relu128 (v : FVec F S100000x128 .f32) : FVec F S100000x128 .f32 :=
  maximumf v (broadcastInDim S100000x128 ![] bcast_S_S100000x128 (constant S_ .f32 0x00000000#32))

/-- x · W₁. -/
def mm128 (x : FVec F S100000x128 .f32) (w : FVec F S128x128 .f32) : FVec F S100000x128 .f32 :=
  Host.dotGeneral dot_S100000x128_S128x128_S100000x128_1_0_0_1_n_n none x w

/-! ## The layer of width 40 -/

def agg40 (y : FVec F S100000x40 .f32) (s d : IVec S1600000 32) (w : FVec F S1600000 .f32) : FVec F S100000x40 .f32 :=
  Host.scatterAdd scatter_S100000x40_S1600000x1_S1600000x40_1_0_0_1
    (broadcastInDim S100000x40 ![] bcast_S_S100000x40 (constant S_ .f32 0x00000000#32))
    (broadcastInDim S1600000x1 ![0] bcast_S1600000_S1600000x1_0 d)
    (mulf (Host.gather gather_S100000x40_S1600000x1_S1600000x40_1_0_n_n_0_1_140 y (startIdx s))
      (broadcastInDim S1600000x40 ![0, 1] bcast_S1600000x1_S1600000x40_0_1 (broadcastInDim S1600000x1 ![0] bcast_S1600000_S1600000x1_0 w)))

def comb40 (a y : FVec F S100000x40 .f32) (ws : FVec F S100000 .f32) (b : FVec F S40 .f32) : FVec F S100000x40 .f32 :=
  addf (addf a (mulf y (broadcastInDim S100000x40 ![0, 1] bcast_S100000x1_S100000x40_0_1 (broadcastInDim S100000x1 ![0] bcast_S100000_S100000x1_0 ws))))
    (broadcastInDim S100000x40 ![0, 1] bcast_S1x40_S100000x40_0_1 (broadcastInDim S1x40 ![1] bcast_S40_S1x40_1 b))

/-- h · W₂. -/
def mm40 (h : FVec F S100000x128 .f32) (w : FVec F S128x40 .f32) : FVec F S100000x40 .f32 :=
  Host.dotGeneral dot_S100000x128_S128x40_S100000x40_1_0_0_1_n_n none h w

/-! ## The network -/

/-- The hidden features: relu of the first convolution. -/
def hidden (x : FVec F S100000x128 .f32) (e : IVec S2x1600000 32) (w1 : FVec F S128x128 .f32) (b1 : FVec F S128 .f32) : FVec F S100000x128 .f32 :=
  relu128 (comb128 (agg128 (mm128 x w1) (srcOf e) (dstOf e) (edgeNorm (srcOf e) (dstOf e))) (mm128 x w1) (selfNorm (dstOf e)) b1)

/-- The second convolution of the hidden features: the network's result. -/
def out (x : FVec F S100000x128 .f32) (e : IVec S2x1600000 32) (w1 : FVec F S128x128 .f32) (b1 : FVec F S128 .f32)
    (w2 : FVec F S128x40 .f32) (b2 : FVec F S40 .f32) : FVec F S100000x40 .f32 :=
  comb40 (agg40 (mm40 (hidden x e w1 b1) w2) (srcOf e) (dstOf e) (edgeNorm (srcOf e) (dstOf e))) (mm40 (hidden x e w1 b1) w2) (selfNorm (dstOf e)) b2

/-- The reference's result is the network of its arguments. -/
theorem ref_eq (m : (ℓ : Loc nD τ sig) → Buf (Elt F) ℓ) (c : Dev nD) :
    Cert.ReferenceIdeal.Value.res_main_v73 m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_main_v73 out hidden comb40 agg40 mm40 relu128 comb128 agg128 mm128 selfNorm edgeNorm invSqrtDeg startIdx srcOf dstOf
  rfl

end Cert.Gcn

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.RowBlock.lean ====
/-
  One entry of a row block against one entry of the whole array, at the exact (extended-real) values.

  A block of rows [a·t, a·t + a) of an [A, n] array is computed from the same rows of the operands. Two facts:

  * a plain product: entry (p, q) of (block of X) · W is ∑ κ, X(P, κ) · W(κ, q), the entry (P, q) of X · W, when
    row p of the block is row P of X. A change of float format is the identity, so the narrowing of both operands
    before the product changes nothing.
  * the convolution's combination (agg + y · w_self) + b: the block multiplies by a column [a, 1] spread across the
    columns and adds a row [1, n] spread down the rows; the whole array does the same with the node weights
    [A] → [A, 1] → [A, n] and the bias [n] → [1, n] → [A, n]. Entry by entry both are
    (agg(P, q) + y(P, q) · w(P)) + b(q).
-/
import proofs.«130058_j61048665145867_1_alg».proof.Proof.LibPlainDot
import Idealize.ShloMosaic.Lib.Pipeline.Value

noncomputable section

namespace Cert.Gcn.Entry

open Idealize.ShloMosaic Idealize.ShloMosaic.ValueIdx Idealize.ShloMosaic.Pipeline

/-- An entry of the block's product is the whole product's entry on the same row. -/
theorem mm {a A k n : ℕ} (dB : DotDims ⟨2, ![a, k]⟩ ⟨2, ![k, n]⟩ ⟨2, ![a, n]⟩) (dW : DotDims ⟨2, ![A, k]⟩ ⟨2, ![k, n]⟩ ⟨2, ![A, n]⟩)
    (hB : Cert.PlainDot.Plain dB) (hrB : dB.contr.rank = 1) (hsB : dB.contr.size ⟨0, by omega⟩ = k)
    (hW : Cert.PlainDot.Plain dW) (hrW : dW.contr.rank = 1) (hsW : dW.contr.size ⟨0, by omega⟩ = k)
    (x0 : FVec Ideal ⟨2, ![a, k]⟩ .f32) (x1 : FVec Ideal ⟨2, ![k, n]⟩ .f32)
    (X : FVec Ideal ⟨2, ![A, k]⟩ .f32) (W : FVec Ideal ⟨2, ![k, n]⟩ .f32)
    (h0 : (.bf16 : FTy).bits < (.f32 : FTy).bits) (h1 : (.bf16 : FTy).bits < (.f32 : FTy).bits)
    (p : Fin a) (q : Fin n) (P : Fin A)
    (hrow : ∀ κ : Fin k, x0 (ix2 p κ) = X (ix2 P κ)) (hw : x1 = W) :
    matmul dB none (truncf .bf16 x0 h0) (truncf .bf16 x1 h1) (constant ⟨2, ![a, n]⟩ .f32 0x00000000#32) (ix2 p q)
      = Host.dotGeneral dW none X W (ix2 P q) := by
  rw [Cert.PlainDot.matmul_zero_apply hB hrB hsB, Cert.PlainDot.dotGeneral_apply hW hrW hsW]
  refine Finset.sum_congr rfl fun κ _ => ?_
  show x0 (ix2 p κ) * x1 (ix2 κ q) = X (ix2 P κ) * W (ix2 κ q)
  rw [hrow κ, hw]

/-- The row block's combination at an entry is the whole array's at the same row. -/
theorem comb {a A n : ℕ}
    (c0 : (⟨2, ![a, n]⟩ : Shape).ShapeCasts ⟨2, ![a, n]⟩) (c1 : (⟨2, ![a, 1]⟩ : Shape).ShapeCasts ⟨2, ![a, 1]⟩)
    (b1 : (⟨2, ![a, 1]⟩ : Shape).Broadcasts ⟨2, ![a, n]⟩)
    (c2 : (⟨1, ![n]⟩ : Shape).ShapeCasts ⟨2, ![1, n]⟩) (b2 : (⟨2, ![1, n]⟩ : Shape).Broadcasts ⟨2, ![a, n]⟩)
    (B1 : (⟨1, ![A]⟩ : Shape).BroadcastsInDim ⟨2, ![A, 1]⟩ ![0]) (B2 : (⟨2, ![A, 1]⟩ : Shape).BroadcastsInDim ⟨2, ![A, n]⟩ ![0, 1])
    (B3 : (⟨1, ![n]⟩ : Shape).BroadcastsInDim ⟨2, ![1, n]⟩ ![1]) (B4 : (⟨2, ![1, n]⟩ : Shape).BroadcastsInDim ⟨2, ![A, n]⟩ ![0, 1])
    (x0 x1 : FVec Ideal ⟨2, ![a, n]⟩ .f32) (x2 : FVec Ideal ⟨2, ![a, 1]⟩ .f32) (x3 : FVec Ideal ⟨1, ![n]⟩ .f32)
    (Ag Y : FVec Ideal ⟨2, ![A, n]⟩ .f32) (ws : FVec Ideal ⟨1, ![A]⟩ .f32) (b : FVec Ideal ⟨1, ![n]⟩ .f32)
    (p : Fin a) (q : Fin n) (P : Fin A)
    (h0 : x0 (ix2 p q) = Ag (ix2 P q)) (h1 : x1 (ix2 p q) = Y (ix2 P q)) (h2 : x2 (ix2 p 0) = ws (ix1 P)) (h3 : x3 = b) :
    addf (addf (shapeCast ⟨2, ![a, n]⟩ x0 c0) (mulf (shapeCast ⟨2, ![a, n]⟩ x1 c0) (broadcastTo ⟨2, ![a, n]⟩ (shapeCast ⟨2, ![a, 1]⟩ x2 c1) b1)))
        (broadcastTo ⟨2, ![a, n]⟩ (shapeCast ⟨2, ![1, n]⟩ x3 c2) b2) (ix2 p q)
      = addf (addf Ag (mulf Y (broadcastInDim ⟨2, ![A, n]⟩ ![0, 1] B2 (broadcastInDim ⟨2, ![A, 1]⟩ ![0] B1 ws))))
        (broadcastInDim ⟨2, ![A, n]⟩ ![0, 1] B4 (broadcastInDim ⟨2, ![1, n]⟩ ![1] B3 b)) (ix2 P q) := by
  -- the block's side: the column spread across, the row spread down
  have e2 : broadcastTo ⟨2, ![a, n]⟩ (shapeCast ⟨2, ![a, 1]⟩ x2 c1) b1 (ix2 p q) = x2 (ix2 p 0) := by
    rw [shapeCast_self]
    exact broadcastTo_apply x2 b1 (ix2 p q) (ix2 p 0) (fun d => by
      match d with
      | ⟨0, _⟩ =>
        show p.val = if a = 1 then 0 else p.val
        split
        · have := p.isLt; omega
        · rfl
      | ⟨1, _⟩ => rfl)
  have e3 : broadcastTo ⟨2, ![a, n]⟩ (shapeCast ⟨2, ![1, n]⟩ x3 c2) b2 (ix2 p q) = x3 (ix1 q) := by
    refine (broadcastTo_apply (shapeCast ⟨2, ![1, n]⟩ x3 c2) b2 (ix2 p q) (ix2 (0 : Fin 1) q) (fun d => by
      match d with
      | ⟨0, _⟩ => rfl
      | ⟨1, _⟩ =>
        show q.val = if n = 1 then 0 else q.val
        split
        · have := q.isLt; omega
        · rfl)).trans ?_
    refine shapeCast_apply x3 c2 (ix2 (0 : Fin 1) q) (ix1 q) ?_
    rw [Shape.rowMajor_val_one, Shape.rowMajor_val_two]
    show q.val = (0 : Fin 1).val * n + q.val
    simp
  -- the whole array's side: the node weights down the rows, the bias across the columns
  have E2 : broadcastInDim ⟨2, ![A, n]⟩ ![0, 1] B2 (broadcastInDim ⟨2, ![A, 1]⟩ ![0] B1 ws) (ix2 P q) = ws (ix1 P) := by
    refine (broadcastInDim_apply ![0, 1] B2 (broadcastInDim ⟨2, ![A, 1]⟩ ![0] B1 ws) (ix2 P q) (ix2 P (0 : Fin 1)) (fun d => by
      match d with
      | ⟨0, _⟩ =>
        show P.val = if A = 1 then 0 else P.val
        split
        · have := P.isLt; omega
        · rfl
      | ⟨1, _⟩ => rfl)).trans ?_
    exact broadcastInDim_apply ![0] B1 ws (ix2 P (0 : Fin 1)) (ix1 P) (fun d => by
      match d with
      | ⟨0, _⟩ =>
        show P.val = if A = 1 then 0 else P.val
        split
        · have := P.isLt; omega
        · rfl)
  have E3 : broadcastInDim ⟨2, ![A, n]⟩ ![0, 1] B4 (broadcastInDim ⟨2, ![1, n]⟩ ![1] B3 b) (ix2 P q) = b (ix1 q) := by
    refine (broadcastInDim_apply ![0, 1] B4 (broadcastInDim ⟨2, ![1, n]⟩ ![1] B3 b) (ix2 P q) (ix2 (0 : Fin 1) q) (fun d => by
      match d with
      | ⟨0, _⟩ => rfl
      | ⟨1, _⟩ =>
        show q.val = if n = 1 then 0 else q.val
        split
        · have := q.isLt; omega
        · rfl)).trans ?_
    exact broadcastInDim_apply ![1] B3 b (ix2 (0 : Fin 1) q) (ix1 q) (fun d => by
      match d with
      | ⟨0, _⟩ =>
        show q.val = if n = 1 then 0 else q.val
        split
        · have := q.isLt; omega
        · rfl)
  show (shapeCast ⟨2, ![a, n]⟩ x0 c0 (ix2 p q) + shapeCast ⟨2, ![a, n]⟩ x1 c0 (ix2 p q) * broadcastTo ⟨2, ![a, n]⟩ (shapeCast ⟨2, ![a, 1]⟩ x2 c1) b1 (ix2 p q))
      + broadcastTo ⟨2, ![a, n]⟩ (shapeCast ⟨2, ![1, n]⟩ x3 c2) b2 (ix2 p q)
    = (Ag (ix2 P q) + Y (ix2 P q) * broadcastInDim ⟨2, ![A, n]⟩ ![0, 1] B2 (broadcastInDim ⟨2, ![A, 1]⟩ ![0] B1 ws) (ix2 P q))
      + broadcastInDim ⟨2, ![A, n]⟩ ![0, 1] B4 (broadcastInDim ⟨2, ![1, n]⟩ ![1] B3 b) (ix2 P q)
  rw [e2, e3, E2, E3, shapeCast_self, shapeCast_self, h0, h1, h2, h3]

end Cert.Gcn.Entry

end
-- ==== Proof.Region0.lean ====
/-
  The first product, as a whole array: after the 20 grid points have each written their 5000 rows back, the
  result array is x · W₁.

  Point t stages rows [5000·t, 5000·t + 5000) of x and all of W₁, multiplies them, and writes the 5000 × 128 block
  back to the same rows of the result. So an entry (5000·t + p, q) of the result is the block's entry (p, q), which
  is ∑ κ, x(5000·t + p, κ) · W₁(κ, q): the entry of the whole product. The 20 blocks tile the 100000 rows, the
  row of an index i lying in block i₀ / 5000.
-/
import proofs.«130058_j61048665145867_1_alg».proof.Proof.Gen.KernelIdeal.Frame
import proofs.«130058_j61048665145867_1_alg».proof.Proof.Spec
import proofs.«130058_j61048665145867_1_alg».proof.Proof.RowBlock

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the rows of x and of the result move with the point, W₁ stays whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value at an entry of the block is the whole product's entry on the matching row. -/
theorem pay_entry (x0 : FVec Ideal S5000x128 .f32) (x1 : FVec Ideal S128x128 .f32) (X : FVec Ideal S100000x128 .f32) (W : FVec Ideal S128x128 .f32)
    (p : Fin 5000) (q : Fin 128) (P : Fin 100000) (hrow : ∀ κ : Fin 128, x0 (ix2 p κ) = X (ix2 P κ)) (hw : x1 = W) :
    k0_pay1 (F := Ideal) x0 x1 (ix2 p q) = Cert.Gcn.mm128 X W (ix2 P q) := by
  unfold k0_pay1 Cert.Gcn.mm128
  exact Cert.Gcn.Entry.mm dot_S5000x128_S128x128_S5000x128_1_0_0_1_n_n Cert.ReferenceIdeal.dot_S100000x128_S128x128_S100000x128_1_0_0_1_n_n
    ⟨rfl, rfl, rfl, rfl, rfl, rfl⟩ rfl rfl ⟨rfl, rfl, rfl, rfl, rfl, rfl⟩ rfl rfl x0 x1 X W _ _ p q P hrow hw

/-- The same, at any index of the block and any index of the array on the matching row and the same column. -/
theorem pay_at (x0 : FVec Ideal S5000x128 .f32) (x1 : FVec Ideal S128x128 .f32) (X : FVec Ideal S100000x128 .f32) (W : FVec Ideal S128x128 .f32)
    (j : S5000x128.Idx) (i : S100000x128.Idx) (hrow : ∀ κ : Fin 128, x0 (ix2 (j 0) κ) = X (ix2 (i 0) κ)) (hw : x1 = W) (hcol : i 1 = j 1) :
    k0_pay1 (F := Ideal) x0 x1 j = Cert.Gcn.mm128 X W i := by
  have hj : j = ix2 (j 0 : Fin 5000) (j 1 : Fin 128) := by
    funext a; match a with | ⟨0, _⟩ => rfl | ⟨1, _⟩ => rfl
  have hi : i = ix2 (i 0 : Fin 100000) (j 1 : Fin 128) := by
    funext a; match a with | ⟨0, _⟩ => rfl | ⟨1, _⟩ => exact hcol
  calc k0_pay1 (F := Ideal) x0 x1 j
      = k0_pay1 (F := Ideal) x0 x1 (ix2 (j 0 : Fin 5000) (j 1 : Fin 128)) := congrArg (k0_pay1 (F := Ideal) x0 x1) hj
    _ = Cert.Gcn.mm128 X W (ix2 (i 0 : Fin 100000) (j 1 : Fin 128)) := pay_entry x0 x1 X W (j 0) (j 1) (i 0) hrow hw
    _ = Cert.Gcn.mm128 X W i := congrArg (Cert.Gcn.mm128 X W) hi.symm

/-- What point t writes back is block t of x · W₁. -/
theorem flushed_eq (c : Dev nD) (t : Fin cfg0.N) :
    (dat0 V c).flushed 2 t = ((cfg0.win 2).blk t).view.read (Elt Ideal) (Cert.Gcn.mm128 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx_facts t
  funext j
  show k0_pay1 (F := Ideal) (iblk0 V c 0 t) (iblk0 V c 1 t) j = Cert.Gcn.mm128 (F := Ideal) (V c main_arg0) (V c main_arg2) (((cfg0.win 2).blk t).view.emb j)
  refine pay_at (iblk0 V c 0 t) (iblk0 V c 1 t) (V c main_arg0) (V c main_arg2) j (((cfg0.win 2).blk t).view.emb j) ?_ ?_ ?_
  · intro κ
    show V c main_arg0 (((cfg0.win 0).blk t).view.emb (ix2 (j 0) κ)) = V c main_arg0 (ix2 ((((cfg0.win 2).blk t).view.emb j) 0) κ)
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      rw [e00, e20]
    | ⟨1, _⟩ =>
      show win0_0.index t (1 : Fin 2) * 128 + 1 * κ.val = κ.val
      rw [e01]; omega
  · funext y
    show V c main_arg2 (((cfg0.win 1).blk t).view.emb y) = V c main_arg2 y
    refine congrArg (V c main_arg2) (funext fun a => Fin.ext ?_)
    match a with
    | ⟨0, _⟩ =>
      show win0_1.index t (0 : Fin 2) * 128 + 1 * (y 0).val = (y 0).val
      rw [e10]; omega
    | ⟨1, _⟩ =>
      show win0_1.index t (1 : Fin 2) * 128 + 1 * (y 1).val = (y 1).val
      rw [e11]; omega
  · refine Fin.ext ?_
    show win0_2.index t (1 : Fin 2) * 128 + 1 * (j 1).val = (j 1).val
    rw [e21]; omega

/-- An index of the result is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Every row of the result is in the block of the point numbered row / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e20, e21⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e20, ht]; omega
  | ⟨1, _⟩ =>
    show win0_2.index t (1 : Fin 2) * 128 ≤ (i 1).val ∧ (i 1).val < win0_2.index t (1 : Fin 2) * 128 + 128
    rw [e21]; omega

/-- The result array after the region: x · W₁ of the arrays the region was entered with. -/
theorem final (c : Dev nD) : (dat0 V c).arrAt 2 cfg0.N = Cert.Gcn.mm128 (F := Ideal) (V c main_arg0) (V c main_arg2) :=
  (dat0 V c).arrAt_eq_of_cover 2 _ (fun t _ => flushed_eq V c t) (cover)

end Cert.KernelIdeal.Reg0

end
-- ==== Proof.Region1.lean ====
/-
  The first combination, as a whole array: after the 20 grid points have each written their 5000 rows back, the
  result array is relu((agg + y · w_self) + b), with agg the summed messages, y = x · W₁, w_self the node weights
  and b the bias.

  Point t stages rows [5000·t, 5000·t + 5000) of agg, of y and of the node-weight column, and all of b, and writes
  max((agg + y · w) + b, 0) back to the same rows of the result. The node weights reach the region as a column
  [100000, 1]; all that is used of it is that its entry (P, 0) is the weight of node P (`hS`).
  Entry by entry the block and the whole array compute the same extended real, so the 20 blocks, which tile the
  rows, assemble the whole-array expression.
-/
import proofs.«130058_j61048665145867_1_alg».proof.Proof.Gen.KernelIdeal.Frame
import proofs.«130058_j61048665145867_1_alg».proof.Proof.Spec
import proofs.«130058_j61048665145867_1_alg».proof.Proof.RowBlock

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The index maps over the grid: every row-blocked operand moves with the point, the bias stays whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The body's value at an entry of the block is the whole expression's entry on the matching row. -/
theorem pay_entry (x0 x1 : FVec Ideal S5000x128 .f32) (x2 : FVec Ideal S5000x1 .f32) (x3 : FVec Ideal S128 .f32)
    (Ag Y : FVec Ideal S100000x128 .f32) (ws : FVec Ideal S100000 .f32) (b : FVec Ideal S128 .f32)
    (p : Fin 5000) (q : Fin 128) (P : Fin 100000)
    (h0 : x0 (ix2 p q) = Ag (ix2 P q)) (h1 : x1 (ix2 p q) = Y (ix2 P q)) (h2 : x2 (ix2 p (0 : Fin 1)) = ws (ix1 P)) (h3 : x3 = b) :
    k1_pay1 (F := Ideal) x0 x1 x2 x3 (ix2 p q) = Cert.Gcn.relu128 (Cert.Gcn.comb128 Ag Y ws b) (ix2 P q) := by
  unfold k1_pay1 Cert.Gcn.relu128 Cert.Gcn.comb128
  exact congrArg₂ max (Cert.Gcn.Entry.comb _ _ _ _ _ _ _ _ _ x0 x1 x2 x3 Ag Y ws b p q P h0 h1 h2 h3) rfl

/-- The same, at any index of the block and any index of the array on the matching row and the same column. -/
theorem pay_at (x0 x1 : FVec Ideal S5000x128 .f32) (x2 : FVec Ideal S5000x1 .f32) (x3 : FVec Ideal S128 .f32)
    (Ag Y : FVec Ideal S100000x128 .f32) (ws : FVec Ideal S100000 .f32) (b : FVec Ideal S128 .f32)
    (j : S5000x128.Idx) (i : S100000x128.Idx)
    (h0 : x0 j = Ag i) (h1 : x1 j = Y i) (h2 : x2 (ix2 (j 0 : Fin 5000) (0 : Fin 1)) = ws (ix1 (i 0 : Fin 100000))) (h3 : x3 = b) (hcol : i 1 = j 1) :
    k1_pay1 (F := Ideal) x0 x1 x2 x3 j = Cert.Gcn.relu128 (Cert.Gcn.comb128 Ag Y ws b) i := by
  have hj : j = ix2 (j 0 : Fin 5000) (j 1 : Fin 128) := by
    funext a; match a with | ⟨0, _⟩ => rfl | ⟨1, _⟩ => rfl
  have hi : i = ix2 (i 0 : Fin 100000) (j 1 : Fin 128) := by
    funext a; match a with | ⟨0, _⟩ => rfl | ⟨1, _⟩ => exact hcol
  calc k1_pay1 (F := Ideal) x0 x1 x2 x3 j
      = k1_pay1 (F := Ideal) x0 x1 x2 x3 (ix2 (j 0 : Fin 5000) (j 1 : Fin 128)) := congrArg (k1_pay1 (F := Ideal) x0 x1 x2 x3) hj
    _ = Cert.Gcn.relu128 (Cert.Gcn.comb128 Ag Y ws b) (ix2 (i 0 : Fin 100000) (j 1 : Fin 128)) :=
        pay_entry x0 x1 x2 x3 Ag Y ws b (j 0) (j 1) (i 0)
          ((congrArg x0 hj.symm).trans (h0.trans (congrArg Ag hi))) ((congrArg x1 hj.symm).trans (h1.trans (congrArg Y hi))) h2 h3
    _ = Cert.Gcn.relu128 (Cert.Gcn.comb128 Ag Y ws b) i := congrArg (Cert.Gcn.relu128 (Cert.Gcn.comb128 Ag Y ws b)) hi.symm

variable (c : Dev nD) (ws : FVec Ideal S100000 .f32) (hS : ∀ P : Fin 100000, V c main_v27 (ix2 P (0 : Fin 1)) = ws (ix1 P))
include hS

/-- What point t writes back is block t of the whole-array expression. -/
theorem flushed_eq (t : Fin cfg1.N) :
    (dat1 V c).flushed 4 t = ((cfg1.win 4).blk t).view.read (Elt Ideal)
      (Cert.Gcn.relu128 (F := Ideal) (Cert.Gcn.comb128 (V c main_v41) (V c main_v28) ws (V c main_arg3))) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S128) hz1]
  obtain ⟨e00, e01, e10, e11, e20, e21, e30, e40, e41⟩ := idx_facts t
  funext j
  show k1_pay1 (F := Ideal) (iblk1 V c 0 t) (iblk1 V c 1 t) (iblk1 V c 2 t) (iblk1 V c 3 t) j
    = Cert.Gcn.relu128 (F := Ideal) (Cert.Gcn.comb128 (V c main_v41) (V c main_v28) ws (V c main_arg3)) (((cfg1.win 4).blk t).view.emb j)
  refine pay_at (iblk1 V c 0 t) (iblk1 V c 1 t) (iblk1 V c 2 t) (iblk1 V c 3 t) (V c main_v41) (V c main_v28) ws (V c main_arg3) j
    (((cfg1.win 4).blk t).view.emb j) ?_ ?_ ?_ ?_ ?_
  · show V c main_v41 (((cfg1.win 0).blk t).view.emb j) = V c main_v41 (((cfg1.win 4).blk t).view.emb j)
    refine congrArg (V c main_v41) (funext fun a => Fin.ext ?_)
    match a with
    | ⟨0, _⟩ =>
      show win1_0.index t (0 : Fin 2) * 5000 + 1 * (j 0).val = win1_4.index t (0 : Fin 2) * 5000 + 1 * (j 0).val
      rw [e00, e40]
    | ⟨1, _⟩ =>
      show win1_0.index t (1 : Fin 2) * 128 + 1 * (j 1).val = win1_4.index t (1 : Fin 2) * 128 + 1 * (j 1).val
      rw [e01, e41]
  · show V c main_v28 (((cfg1.win 1).blk t).view.emb j) = V c main_v28 (((cfg1.win 4).blk t).view.emb j)
    refine congrArg (V c main_v28) (funext fun a => Fin.ext ?_)
    match a with
    | ⟨0, _⟩ =>
      show win1_1.index t (0 : Fin 2) * 5000 + 1 * (j 0).val = win1_4.index t (0 : Fin 2) * 5000 + 1 * (j 0).val
      rw [e10, e40]
    | ⟨1, _⟩ =>
      show win1_1.index t (1 : Fin 2) * 128 + 1 * (j 1).val = win1_4.index t (1 : Fin 2) * 128 + 1 * (j 1).val
      rw [e11, e41]
  · show V c main_v27 (((cfg1.win 2).blk t).view.emb (ix2 (j 0 : Fin 5000) (0 : Fin 1))) = ws (ix1 ((((cfg1.win 4).blk t).view.emb j) 0 : Fin 100000))
    refine (congrArg (V c main_v27) ?_).trans (hS _)
    funext a
    refine Fin.ext ?_
    match a with
    | ⟨0, _⟩ =>
      show win1_2.index t (0 : Fin 2) * 5000 + 1 * (j 0).val = win1_4.index t (0 : Fin 2) * 5000 + 1 * (j 0).val
      rw [e20, e40]
    | ⟨1, _⟩ =>
      show win1_2.index t (1 : Fin 2) * 1 + 1 * 0 = 0
      rw [e21]
  · funext y
    show V c main_arg3 (((cfg1.win 3).blk t).view.emb y) = V c main_arg3 y
    refine congrArg (V c main_arg3) (funext fun a => Fin.ext ?_)
    match a with
    | ⟨0, _⟩ =>
      show win1_3.index t (0 : Fin 1) * 128 + 1 * (y 0).val = (y 0).val
      rw [e30]; omega
  · refine Fin.ext ?_
    show win1_4.index t (1 : Fin 2) * 128 + 1 * (j 1).val = (j 1).val
    rw [e41]; omega

omit hS

/-- An index of the result is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v42).slice (win1_4.rect t)).set ↔ _
  rw [View.set_slice_whole, Rect.mem_set_unit]
  exact Iff.rfl

/-- Every row of the result is in the block of the point numbered row / 5000. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, e40, e41⟩ := idx_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    rw [e40, ht]; omega
  | ⟨1, _⟩ =>
    show win1_4.index t (1 : Fin 2) * 128 ≤ (i 1).val ∧ (i 1).val < win1_4.index t (1 : Fin 2) * 128 + 128
    rw [e41]; omega

include hS

/-- The result array after the region: relu of the first convolution of the arrays the region was entered with. -/
theorem final : (dat1 V c).arrAt 4 cfg1.N
    = Cert.Gcn.relu128 (F := Ideal) (Cert.Gcn.comb128 (V c main_v41) (V c main_v28) ws (V c main_arg3)) :=
  (dat1 V c).arrAt_eq_of_cover 4 _ (fun t _ => flushed_eq V c ws hS t) (cover)

end Cert.KernelIdeal.Reg1

end
-- ==== Proof.Region2.lean ====
/-
  The second product, as a whole array: after the 20 grid points have each written their 5000 rows back, the
  result array is h · W₂, h the hidden features the region was entered with.

  Point t stages rows [5000·t, 5000·t + 5000) of h and all of W₂ (128 × 40), multiplies them, and writes the
  5000 × 40 block back to the same rows of the result. An entry (5000·t + p, q) of the result is therefore
  ∑ κ, h(5000·t + p, κ) · W₂(κ, q). The body's cast of the staged block to its own shape is the identity.
-/
import proofs.«130058_j61048665145867_1_alg».proof.Proof.Gen.KernelIdeal.Frame
import proofs.«130058_j61048665145867_1_alg».proof.Proof.Spec
import proofs.«130058_j61048665145867_1_alg».proof.Proof.RowBlock

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the rows of h and of the result move with the point, W₂ stays whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value at an entry of the block is the whole product's entry on the matching row. -/
theorem pay_entry (x0 : FVec Ideal S5000x128 .f32) (x1 : FVec Ideal S128x40 .f32) (H : FVec Ideal S100000x128 .f32) (W : FVec Ideal S128x40 .f32)
    (p : Fin 5000) (q : Fin 40) (P : Fin 100000) (hrow : ∀ κ : Fin 128, x0 (ix2 p κ) = H (ix2 P κ)) (hw : x1 = W) :
    k2_pay1 (F := Ideal) x0 x1 (ix2 p q) = Cert.Gcn.mm40 H W (ix2 P q) := by
  unfold k2_pay1 Cert.Gcn.mm40
  rw [shapeCast_self]
  exact Cert.Gcn.Entry.mm dot_S5000x128_S128x40_S5000x40_1_0_0_1_n_n Cert.ReferenceIdeal.dot_S100000x128_S128x40_S100000x40_1_0_0_1_n_n
    ⟨rfl, rfl, rfl, rfl, rfl, rfl⟩ rfl rfl ⟨rfl, rfl, rfl, rfl, rfl, rfl⟩ rfl rfl x0 x1 H W _ _ p q P hrow hw

/-- The same, at any index of the block and any index of the array on the matching row and the same column. -/
theorem pay_at (x0 : FVec Ideal S5000x128 .f32) (x1 : FVec Ideal S128x40 .f32) (H : FVec Ideal S100000x128 .f32) (W : FVec Ideal S128x40 .f32)
    (j : S5000x40.Idx) (i : S100000x40.Idx) (hrow : ∀ κ : Fin 128, x0 (ix2 (j 0) κ) = H (ix2 (i 0) κ)) (hw : x1 = W) (hcol : i 1 = j 1) :
    k2_pay1 (F := Ideal) x0 x1 j = Cert.Gcn.mm40 H W i := by
  have hj : j = ix2 (j 0 : Fin 5000) (j 1 : Fin 40) := by
    funext a; match a with | ⟨0, _⟩ => rfl | ⟨1, _⟩ => rfl
  have hi : i = ix2 (i 0 : Fin 100000) (j 1 : Fin 40) := by
    funext a; match a with | ⟨0, _⟩ => rfl | ⟨1, _⟩ => exact hcol
  calc k2_pay1 (F := Ideal) x0 x1 j
      = k2_pay1 (F := Ideal) x0 x1 (ix2 (j 0 : Fin 5000) (j 1 : Fin 40)) := congrArg (k2_pay1 (F := Ideal) x0 x1) hj
    _ = Cert.Gcn.mm40 H W (ix2 (i 0 : Fin 100000) (j 1 : Fin 40)) := pay_entry x0 x1 H W (j 0) (j 1) (i 0) hrow hw
    _ = Cert.Gcn.mm40 H W i := congrArg (Cert.Gcn.mm40 H W) hi.symm

/-- What point t writes back is block t of h · W₂. -/
theorem flushed_eq (c : Dev nD) (t : Fin cfg2.N) :
    (dat2 V c).flushed 2 t = ((cfg2.win 2).blk t).view.read (Elt Ideal) (Cert.Gcn.mm40 (F := Ideal) (V c main_v42) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x40) hz]
  obtain ⟨e00, e01, e10, e11, e20, e21⟩ := idx_facts t
  funext j
  show k2_pay1 (F := Ideal) (iblk2 V c 0 t) (iblk2 V c 1 t) j = Cert.Gcn.mm40 (F := Ideal) (V c main_v42) (V c main_arg4) (((cfg2.win 2).blk t).view.emb j)
  refine pay_at (iblk2 V c 0 t) (iblk2 V c 1 t) (V c main_v42) (V c main_arg4) j (((cfg2.win 2).blk t).view.emb j) ?_ ?_ ?_
  · intro κ
    show V c main_v42 (((cfg2.win 0).blk t).view.emb (ix2 (j 0) κ)) = V c main_v42 (ix2 ((((cfg2.win 2).blk t).view.emb j) 0) κ)
    refine congrArg (V c main_v42) (funext fun a => Fin.ext ?_)
    match a with
    | ⟨0, _⟩ =>
      show win2_0.index t (0 : Fin 2) * 5000 + 1 * (j 0).val = win2_2.index t (0 : Fin 2) * 5000 + 1 * (j 0).val
      rw [e00, e20]
    | ⟨1, _⟩ =>
      show win2_0.index t (1 : Fin 2) * 128 + 1 * κ.val = κ.val
      rw [e01]; omega
  · funext y
    show V c main_arg4 (((cfg2.win 1).blk t).view.emb y) = V c main_arg4 y
    refine congrArg (V c main_arg4) (funext fun a => Fin.ext ?_)
    match a with
    | ⟨0, _⟩ =>
      show win2_1.index t (0 : Fin 2) * 128 + 1 * (y 0).val = (y 0).val
      rw [e10]; omega
    | ⟨1, _⟩ =>
      show win2_1.index t (1 : Fin 2) * 40 + 1 * (y 1).val = (y 1).val
      rw [e11]; omega
  · refine Fin.ext ?_
    show win2_2.index t (1 : Fin 2) * 40 + 1 * (j 1).val = (j 1).val
    rw [e21]; omega

/-- An index of the result is in point t's block iff each coordinate is in the block's range on its axis. -/
theorem mem_blk (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v43).slice (win2_2.rect t)).set ↔ _
  rw [View.set_slice_whole, Rect.mem_set_unit]
  exact Iff.rfl

/-- Every row of the result is in the block of the point numbered row / 5000. -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, e20, e21⟩ := idx_facts t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    rw [e20, ht]; omega
  | ⟨1, _⟩ =>
    show win2_2.index t (1 : Fin 2) * 40 ≤ (i 1).val ∧ (i 1).val < win2_2.index t (1 : Fin 2) * 40 + 40
    rw [e21]; omega

/-- The result array after the region: h · W₂ of the arrays the region was entered with. -/
theorem final (c : Dev nD) : (dat2 V c).arrAt 2 cfg2.N = Cert.Gcn.mm40 (F := Ideal) (V c main_v42) (V c main_arg4) :=
  (dat2 V c).arrAt_eq_of_cover 2 _ (fun t _ => flushed_eq V c t) (cover)

end Cert.KernelIdeal.Reg2

end
-- ==== Proof.Region3.lean ====
/-
  The last combination, as a whole array: after the 20 grid points have each written their 5000 rows back, the
  result array is (agg + y · w_self) + b, with agg the second layer's summed messages, y = h · W₂ (40 columns),
  w_self the node weights and b the second bias. No maximum follows: this is the network's result.

  Point t stages rows [5000·t, 5000·t + 5000) of agg, of y and of the node-weight column, and all of b, and writes
  (agg + y · w) + b back to the same rows of the result. Of the node-weight column [100000, 1] all that is used is
  that its entry (P, 0) is the weight of node P (`hS`).
-/
import proofs.«130058_j61048665145867_1_alg».proof.Proof.Gen.KernelIdeal.Frame
import proofs.«130058_j61048665145867_1_alg».proof.Proof.Spec
import proofs.«130058_j61048665145867_1_alg».proof.Proof.RowBlock

set_option maxRecDepth 16384

noncomputable section

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The index maps over the grid: every row-blocked operand moves with the point, the bias stays whole. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- The body's value at an entry of the block is the whole expression's entry on the matching row. -/
theorem pay_entry (x0 x1 : FVec Ideal S5000x40 .f32) (x2 : FVec Ideal S5000x1 .f32) (x3 : FVec Ideal S40 .f32)
    (Ag Y : FVec Ideal S100000x40 .f32) (ws : FVec Ideal S100000 .f32) (b : FVec Ideal S40 .f32)
    (p : Fin 5000) (q : Fin 40) (P : Fin 100000)
    (h0 : x0 (ix2 p q) = Ag (ix2 P q)) (h1 : x1 (ix2 p q) = Y (ix2 P q)) (h2 : x2 (ix2 p (0 : Fin 1)) = ws (ix1 P)) (h3 : x3 = b) :
    k3_pay1 (F := Ideal) x0 x1 x2 x3 (ix2 p q) = Cert.Gcn.comb40 Ag Y ws b (ix2 P q) := by
  unfold k3_pay1 Cert.Gcn.comb40
  exact Cert.Gcn.Entry.comb _ _ _ _ _ _ _ _ _ x0 x1 x2 x3 Ag Y ws b p q P h0 h1 h2 h3

/-- The same, at any index of the block and any index of the array on the matching row and the same column. -/
theorem pay_at (x0 x1 : FVec Ideal S5000x40 .f32) (x2 : FVec Ideal S5000x1 .f32) (x3 : FVec Ideal S40 .f32)
    (Ag Y : FVec Ideal S100000x40 .f32) (ws : FVec Ideal S100000 .f32) (b : FVec Ideal S40 .f32)
    (j : S5000x40.Idx) (i : S100000x40.Idx)
    (h0 : x0 j = Ag i) (h1 : x1 j = Y i) (h2 : x2 (ix2 (j 0 : Fin 5000) (0 : Fin 1)) = ws (ix1 (i 0 : Fin 100000))) (h3 : x3 = b) (hcol : i 1 = j 1) :
    k3_pay1 (F := Ideal) x0 x1 x2 x3 j = Cert.Gcn.comb40 Ag Y ws b i := by
  have hj : j = ix2 (j 0 : Fin 5000) (j 1 : Fin 40) := by
    funext a; match a with | ⟨0, _⟩ => rfl | ⟨1, _⟩ => rfl
  have hi : i = ix2 (i 0 : Fin 100000) (j 1 : Fin 40) := by
    funext a; match a with | ⟨0, _⟩ => rfl | ⟨1, _⟩ => exact hcol
  calc k3_pay1 (F := Ideal) x0 x1 x2 x3 j
      = k3_pay1 (F := Ideal) x0 x1 x2 x3 (ix2 (j 0 : Fin 5000) (j 1 : Fin 40)) := congrArg (k3_pay1 (F := Ideal) x0 x1 x2 x3) hj
    _ = Cert.Gcn.comb40 Ag Y ws b (ix2 (i 0 : Fin 100000) (j 1 : Fin 40)) :=
        pay_entry x0 x1 x2 x3 Ag Y ws b (j 0) (j 1) (i 0)
          ((congrArg x0 hj.symm).trans (h0.trans (congrArg Ag hi))) ((congrArg x1 hj.symm).trans (h1.trans (congrArg Y hi))) h2 h3
    _ = Cert.Gcn.comb40 Ag Y ws b i := congrArg (Cert.Gcn.comb40 Ag Y ws b) hi.symm

variable (c : Dev nD) (ws : FVec Ideal S100000 .f32) (hS : ∀ P : Fin 100000, V c main_v27 (ix2 P (0 : Fin 1)) = ws (ix1 P))
include hS

/-- What point t writes back is block t of the whole-array expression. -/
theorem flushed_eq (t : Fin cfg3.N) :
    (dat3 V c).flushed 4 t = ((cfg3.win 4).blk t).view.read (Elt Ideal)
      (Cert.Gcn.comb40 (F := Ideal) (V c main_v56) (V c main_v43) ws (V c main_arg5)) := by
  show (cfg3.win 4).cut (grid3.coords t) ((dat3 V c).after 4 t) = _
  rw [after3_4]
  unfold out3_4
  rw [View.canon_unit_zero hz]
  simp only [View.ld_unit_zero (S := S5000x40) hz, View.ld_unit_zero (S := S5000x1) hz, View.ld_unit_zero (S := S40) hz1]
  obtain ⟨e00, e01, e10, e11, e20, e21, e30, e40, e41⟩ := idx_facts t
  funext j
  show k3_pay1 (F := Ideal) (iblk3 V c 0 t) (iblk3 V c 1 t) (iblk3 V c 2 t) (iblk3 V c 3 t) j
    = Cert.Gcn.comb40 (F := Ideal) (V c main_v56) (V c main_v43) ws (V c main_arg5) (((cfg3.win 4).blk t).view.emb j)
  refine pay_at (iblk3 V c 0 t) (iblk3 V c 1 t) (iblk3 V c 2 t) (iblk3 V c 3 t) (V c main_v56) (V c main_v43) ws (V c main_arg5) j
    (((cfg3.win 4).blk t).view.emb j) ?_ ?_ ?_ ?_ ?_
  · show V c main_v56 (((cfg3.win 0).blk t).view.emb j) = V c main_v56 (((cfg3.win 4).blk t).view.emb j)
    refine congrArg (V c main_v56) (funext fun a => Fin.ext ?_)
    match a with
    | ⟨0, _⟩ =>
      show win3_0.index t (0 : Fin 2) * 5000 + 1 * (j 0).val = win3_4.index t (0 : Fin 2) * 5000 + 1 * (j 0).val
      rw [e00, e40]
    | ⟨1, _⟩ =>
      show win3_0.index t (1 : Fin 2) * 40 + 1 * (j 1).val = win3_4.index t (1 : Fin 2) * 40 + 1 * (j 1).val
      rw [e01, e41]
  · show V c main_v43 (((cfg3.win 1).blk t).view.emb j) = V c main_v43 (((cfg3.win 4).blk t).view.emb j)
    refine congrArg (V c main_v43) (funext fun a => Fin.ext ?_)
    match a with
    | ⟨0, _⟩ =>
      show win3_1.index t (0 : Fin 2) * 5000 + 1 * (j 0).val = win3_4.index t (0 : Fin 2) * 5000 + 1 * (j 0).val
      rw [e10, e40]
    | ⟨1, _⟩ =>
      show win3_1.index t (1 : Fin 2) * 40 + 1 * (j 1).val = win3_4.index t (1 : Fin 2) * 40 + 1 * (j 1).val
      rw [e11, e41]
  · show V c main_v27 (((cfg3.win 2).blk t).view.emb (ix2 (j 0 : Fin 5000) (0 : Fin 1))) = ws (ix1 ((((cfg3.win 4).blk t).view.emb j) 0 : Fin 100000))
    refine (congrArg (V c main_v27) ?_).trans (hS _)
    funext a
    refine Fin.ext ?_
    match a with
    | ⟨0, _⟩ =>
      show win3_2.index t (0 : Fin 2) * 5000 + 1 * (j 0).val = win3_4.index t (0 : Fin 2) * 5000 + 1 * (j 0).val
      rw [e20, e40]
    | ⟨1, _⟩ =>
      show win3_2.index t (1 : Fin 2) * 1 + 1 * 0 = 0
      rw [e21]
  · funext y
    show V c main_arg5 (((cfg3.win 3).blk t).view.emb y) = V c main_arg5 y
    refine congrArg (V c main_arg5) (funext fun a => Fin.ext ?_)
    match a with
    | ⟨0, _⟩ =>
      show win3_3.index t (0 : Fin 1) * 40 + 1 * (y 0).val = (y 0).val
      rw [e30]; omega
  · refine Fin.ext ?_
    show win3_4.index t (1 : Fin 2) * 40 + 1 * (j 1).val = (j 1).val
    rw [e41]; omega

omit hS

/-- An index of the result is in point t's block iff each coordinate is in the block's range on its axis. -/
theorem mem_blk (t : Fin cfg3.N) (i : S100000x40.Idx) :
    i ∈ ((cfg3.win 4).blk t).view.set ↔ ∀ a : Fin 2, win3_4.index t a * S5000x40.size a ≤ (i a).val ∧ (i a).val < win3_4.index t a * S5000x40.size a + S5000x40.size a := by
  show i ∈ ((View.whole main_v57).slice (win3_4.rect t)).set ↔ _
  rw [View.set_slice_whole, Rect.mem_set_unit]
  exact Iff.rfl

/-- Every row of the result is in the block of the point numbered row / 5000. -/
theorem cover (i : S100000x40.Idx) : ∃ t : Fin cfg3.N, (cfg3.win 4).flush t = true ∧ i ∈ ((cfg3.win 4).blk t).view.set := by
  have hi0 : (i 0).val < 100000 := (i 0).isLt
  have hi1 : (i 1).val < 40 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, -, e40, e41⟩ := idx_facts t
  refine ⟨t, flush3_4 t, ?_⟩
  rw [mem_blk]
  intro a
  match a with
  | ⟨0, _⟩ =>
    show win3_4.index t (0 : Fin 2) * 5000 ≤ (i 0).val ∧ (i 0).val < win3_4.index t (0 : Fin 2) * 5000 + 5000
    rw [e40, ht]; omega
  | ⟨1, _⟩ =>
    show win3_4.index t (1 : Fin 2) * 40 ≤ (i 1).val ∧ (i 1).val < win3_4.index t (1 : Fin 2) * 40 + 40
    rw [e41]; omega

include hS

/-- The result array after the region: the second convolution of the arrays the region was entered with. -/
theorem final : (dat3 V c).arrAt 4 cfg3.N
    = Cert.Gcn.comb40 (F := Ideal) (V c main_v56) (V c main_v43) ws (V c main_arg5) :=
  (dat3 V c).arrAt_eq_of_cover 4 _ (fun t _ => flushed_eq V c ws hS t) (cover)

end Cert.KernelIdeal.Reg3

end
-- ==== Proof.Walk.lean ====
/-
  The idealized kernel program's result array, read back through the program's seven segments to the launch memory.

  The program alternates stretches of host operations with four kernel regions. Its buffer contents at the segment
  boundaries are a fold from the launch memory: a host stretch applies its operations, a region replaces its output
  array by what its write-backs leave and keeps everything else. Reading the fold one boundary at a time:

    1 (after the first host stretch)  the sources s and targets d of the edges, the edge weights, the node weights
                                      as a column, all functions of the edge list alone; the arguments as launched
    2 (after region 0)                y₁ = x · W₁
    3 (after the second stretch)      agg₁, the messages y₁[s] · w_edge summed per target
    4 (after region 1)                h = relu((agg₁ + y₁ · w_self) + b₁)
    5 (after region 2)                y₂ = h · W₂
    6 (after the third stretch)       agg₂
    7 (after region 3)                (agg₂ + y₂ · w_self) + b₂, the network's result

  Every other buffer a later segment reads is carried across unchanged: a host stretch writes only its own results,
  a region only its output array.
-/
import proofs.«130058_j61048665145867_1_alg».proof.Proof.Gen.KernelIdeal.Frame
import proofs.«130058_j61048665145867_1_alg».proof.Proof.Spec
import proofs.«130058_j61048665145867_1_alg».proof.Proof.Region0
import proofs.«130058_j61048665145867_1_alg».proof.Proof.Region1
import proofs.«130058_j61048665145867_1_alg».proof.Proof.Region2
import proofs.«130058_j61048665145867_1_alg».proof.Proof.Region3
import Idealize.ShloMosaic.Lib.StableHlo.Run
import Idealize.ShloMosaic.Lib.ValueIdx
import Idealize.ShloMosaic.Lib.Pipeline.Value

set_option maxRecDepth 16384

noncomputable section

namespace Cert.KernelIdeal.Walk

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The launch contents of the six arguments. -/
abbrev aX := m ((c : Thread nD τ).loc main_arg0)
abbrev aE := m ((c : Thread nD τ).loc main_arg1)
abbrev aW1 := m ((c : Thread nD τ).loc main_arg2)
abbrev aB1 := m ((c : Thread nD τ).loc main_arg3)
abbrev aW2 := m ((c : Thread nD τ).loc main_arg4)
abbrev aB2 := m ((c : Thread nD τ).loc main_arg5)
/-- The edges' sources and targets, the edge weights and the node weights, of the launched edge list. -/
abbrev eS : IVec S1600000 32 := Cert.Gcn.srcOf (aE m c)
abbrev eD : IVec S1600000 32 := Cert.Gcn.dstOf (aE m c)
abbrev eN : FVec Ideal S1600000 .f32 := Cert.Gcn.edgeNorm (F := Ideal) (eS m c) (eD m c)
abbrev eW : FVec Ideal S100000 .f32 := Cert.Gcn.selfNorm (F := Ideal) (eD m c)
/-- The two products and the hidden features. -/
abbrev y1 : FVec Ideal S100000x128 .f32 := Cert.Gcn.mm128 (F := Ideal) (aX m c) (aW1 m c)
abbrev hid : FVec Ideal S100000x128 .f32 := Cert.Gcn.hidden (F := Ideal) (aX m c) (aE m c) (aW1 m c) (aB1 m c)
abbrev y2 : FVec Ideal S100000x40 .f32 := Cert.Gcn.mm40 (F := Ideal) (hid m c) (aW2 m c)

/-! ## Boundary 1: after the first host stretch -/

theorem b1_src : W1 m ρ c (Proc.devRef .tc main_v1) = eS m c := by
  show StableHlo.after hostOps0 (W0 m ρ c) (Proc.devRef .tc main_v1) = _
  after_results_simp; rfl
theorem b1_dst : W1 m ρ c (Proc.devRef .tc main_v3) = eD m c := by
  show StableHlo.after hostOps0 (W0 m ρ c) (Proc.devRef .tc main_v3) = _
  after_results_simp; rfl
theorem b1_en : W1 m ρ c (Proc.devRef .tc main_v25) = eN m c := by
  show StableHlo.after hostOps0 (W0 m ρ c) (Proc.devRef .tc main_v25) = _
  after_results_simp; rfl
theorem b1_sn : W1 m ρ c (Proc.devRef .tc main_v27) = shapeCast S100000x1 (eW m c) shapeCasts_S100000_S100000x1 := by
  show StableHlo.after hostOps0 (W0 m ρ c) (Proc.devRef .tc main_v27) = _
  after_results_simp; rfl
theorem b1_x : W1 m ρ c (Proc.devRef .tc main_arg0) = aX m c := by
  show StableHlo.after hostOps0 (W0 m ρ c) (Proc.devRef .tc main_arg0) = _
  after_results_simp
theorem b1_w1 : W1 m ρ c (Proc.devRef .tc main_arg2) = aW1 m c := by
  show StableHlo.after hostOps0 (W0 m ρ c) (Proc.devRef .tc main_arg2) = _
  after_results_simp
theorem b1_b1 : W1 m ρ c (Proc.devRef .tc main_arg3) = aB1 m c := by
  show StableHlo.after hostOps0 (W0 m ρ c) (Proc.devRef .tc main_arg3) = _
  after_results_simp
theorem b1_w2 : W1 m ρ c (Proc.devRef .tc main_arg4) = aW2 m c := by
  show StableHlo.after hostOps0 (W0 m ρ c) (Proc.devRef .tc main_arg4) = _
  after_results_simp
theorem b1_b2 : W1 m ρ c (Proc.devRef .tc main_arg5) = aB2 m c := by
  show StableHlo.after hostOps0 (W0 m ρ c) (Proc.devRef .tc main_arg5) = _
  after_results_simp

/-! ## Boundary 2: after region 0 -/

theorem b2_y1 : W2 m ρ c (Proc.devRef .tc main_v28) = y1 m c :=
  (W2_arr m ρ c 2).trans ((Cert.KernelIdeal.Reg0.final (V1 m ρ) c).trans
    (congrArg₂ (Cert.Gcn.mm128 (F := Ideal)) (b1_x m ρ c) (b1_w1 m ρ c)))
theorem b2_src : W2 m ρ c (Proc.devRef .tc main_v1) = eS m c := (W2_of_ne m ρ c main_v1 (by decide)).trans (b1_src m ρ c)
theorem b2_dst : W2 m ρ c (Proc.devRef .tc main_v3) = eD m c := (W2_of_ne m ρ c main_v3 (by decide)).trans (b1_dst m ρ c)
theorem b2_en : W2 m ρ c (Proc.devRef .tc main_v25) = eN m c := (W2_of_ne m ρ c main_v25 (by decide)).trans (b1_en m ρ c)
theorem b2_sn : W2 m ρ c (Proc.devRef .tc main_v27) = shapeCast S100000x1 (eW m c) shapeCasts_S100000_S100000x1 :=
  (W2_of_ne m ρ c main_v27 (by decide)).trans (b1_sn m ρ c)
theorem b2_b1 : W2 m ρ c (Proc.devRef .tc main_arg3) = aB1 m c := (W2_of_ne m ρ c main_arg3 (by decide)).trans (b1_b1 m ρ c)
theorem b2_w2 : W2 m ρ c (Proc.devRef .tc main_arg4) = aW2 m c := (W2_of_ne m ρ c main_arg4 (by decide)).trans (b1_w2 m ρ c)
theorem b2_b2 : W2 m ρ c (Proc.devRef .tc main_arg5) = aB2 m c := (W2_of_ne m ρ c main_arg5 (by decide)).trans (b1_b2 m ρ c)

/-! ## Boundary 3: after the second host stretch -/

theorem b3_agg : W3 m ρ c (Proc.devRef .tc main_v41) = Cert.Gcn.agg128 (F := Ideal) (y1 m c) (eS m c) (eD m c) (eN m c) := by
  show StableHlo.after hostOps1 (W2 m ρ c) (Proc.devRef .tc main_v41) = _
  after_results_simp
  rw [b2_y1, b2_src, b2_dst, b2_en]
  rfl
theorem b3_y1 : W3 m ρ c (Proc.devRef .tc main_v28) = y1 m c := by
  show StableHlo.after hostOps1 (W2 m ρ c) (Proc.devRef .tc main_v28) = _
  after_results_simp; exact b2_y1 m ρ c
theorem b3_src : W3 m ρ c (Proc.devRef .tc main_v1) = eS m c := by
  show StableHlo.after hostOps1 (W2 m ρ c) (Proc.devRef .tc main_v1) = _
  after_results_simp; exact b2_src m ρ c
theorem b3_dst : W3 m ρ c (Proc.devRef .tc main_v3) = eD m c := by
  show StableHlo.after hostOps1 (W2 m ρ c) (Proc.devRef .tc main_v3) = _
  after_results_simp; exact b2_dst m ρ c
theorem b3_en : W3 m ρ c (Proc.devRef .tc main_v25) = eN m c := by
  show StableHlo.after hostOps1 (W2 m ρ c) (Proc.devRef .tc main_v25) = _
  after_results_simp; exact b2_en m ρ c
theorem b3_sn : W3 m ρ c (Proc.devRef .tc main_v27) = shapeCast S100000x1 (eW m c) shapeCasts_S100000_S100000x1 := by
  show StableHlo.after hostOps1 (W2 m ρ c) (Proc.devRef .tc main_v27) = _
  after_results_simp; exact b2_sn m ρ c
theorem b3_b1 : W3 m ρ c (Proc.devRef .tc main_arg3) = aB1 m c := by
  show StableHlo.after hostOps1 (W2 m ρ c) (Proc.devRef .tc main_arg3) = _
  after_results_simp; exact b2_b1 m ρ c
theorem b3_w2 : W3 m ρ c (Proc.devRef .tc main_arg4) = aW2 m c := by
  show StableHlo.after hostOps1 (W2 m ρ c) (Proc.devRef .tc main_arg4) = _
  after_results_simp; exact b2_w2 m ρ c
theorem b3_b2 : W3 m ρ c (Proc.devRef .tc main_arg5) = aB2 m c := by
  show StableHlo.after hostOps1 (W2 m ρ c) (Proc.devRef .tc main_arg5) = _
  after_results_simp; exact b2_b2 m ρ c

/-- The node-weight column's entry (P, 0) is the weight of node P: a cast [100000] → [100000, 1] keeps the
    row-major position. -/
theorem col_entry (w : FVec Ideal S100000 .f32) (P : Fin 100000) :
    shapeCast S100000x1 w shapeCasts_S100000_S100000x1 (ix2 P (0 : Fin 1)) = w (ix1 P) := by
  refine shapeCast_apply w shapeCasts_S100000_S100000x1 (ix2 P (0 : Fin 1)) (ix1 P) ?_
  rw [Shape.rowMajor_val_one, Shape.rowMajor_val_two]
  show P.val = P.val * 1 + (0 : Fin 1).val
  simp

/-! ## Boundary 4: after region 1 -/

theorem b4_hid : W4 m ρ c (Proc.devRef .tc main_v42) = hid m c :=
  (W4_arr m ρ c 4).trans ((Cert.KernelIdeal.Reg1.final (V3 m ρ) c (eW m c)
      (fun P => (congrFun (b3_sn m ρ c) (ix2 P (0 : Fin 1))).trans (col_entry (eW m c) P))).trans (by
    rw [show V3 m ρ c main_v41 = _ from b3_agg m ρ c, show V3 m ρ c main_v28 = _ from b3_y1 m ρ c,
      show V3 m ρ c main_arg3 = _ from b3_b1 m ρ c]
    rfl))
theorem b4_src : W4 m ρ c (Proc.devRef .tc main_v1) = eS m c := (W4_of_ne m ρ c main_v1 (by decide)).trans (b3_src m ρ c)
theorem b4_dst : W4 m ρ c (Proc.devRef .tc main_v3) = eD m c := (W4_of_ne m ρ c main_v3 (by decide)).trans (b3_dst m ρ c)
theorem b4_en : W4 m ρ c (Proc.devRef .tc main_v25) = eN m c := (W4_of_ne m ρ c main_v25 (by decide)).trans (b3_en m ρ c)
theorem b4_sn : W4 m ρ c (Proc.devRef .tc main_v27) = shapeCast S100000x1 (eW m c) shapeCasts_S100000_S100000x1 :=
  (W4_arr m ρ c 2).trans ((((dat1 (V3 m ρ) c).arrAt_in 2 rfl _).trans (A_eq1 (V3 m ρ) c 2)).trans (b3_sn m ρ c))
theorem b4_w2 : W4 m ρ c (Proc.devRef .tc main_arg4) = aW2 m c := (W4_of_ne m ρ c main_arg4 (by decide)).trans (b3_w2 m ρ c)
theorem b4_b2 : W4 m ρ c (Proc.devRef .tc main_arg5) = aB2 m c := (W4_of_ne m ρ c main_arg5 (by decide)).trans (b3_b2 m ρ c)

/-! ## Boundary 5: after region 2 -/

theorem b5_y2 : W5 m ρ c (Proc.devRef .tc main_v43) = y2 m c :=
  (W5_arr m ρ c 2).trans ((Cert.KernelIdeal.Reg2.final (V4 m ρ) c).trans
    (congrArg₂ (Cert.Gcn.mm40 (F := Ideal)) (b4_hid m ρ c) (b4_w2 m ρ c)))
theorem b5_src : W5 m ρ c (Proc.devRef .tc main_v1) = eS m c := (W5_of_ne m ρ c main_v1 (by decide)).trans (b4_src m ρ c)
theorem b5_dst : W5 m ρ c (Proc.devRef .tc main_v3) = eD m c := (W5_of_ne m ρ c main_v3 (by decide)).trans (b4_dst m ρ c)
theorem b5_en : W5 m ρ c (Proc.devRef .tc main_v25) = eN m c := (W5_of_ne m ρ c main_v25 (by decide)).trans (b4_en m ρ c)
theorem b5_sn : W5 m ρ c (Proc.devRef .tc main_v27) = shapeCast S100000x1 (eW m c) shapeCasts_S100000_S100000x1 :=
  (W5_of_ne m ρ c main_v27 (by decide)).trans (b4_sn m ρ c)
theorem b5_b2 : W5 m ρ c (Proc.devRef .tc main_arg5) = aB2 m c := (W5_of_ne m ρ c main_arg5 (by decide)).trans (b4_b2 m ρ c)

/-! ## Boundary 6: after the third host stretch -/

theorem b6_agg : W6 m ρ c (Proc.devRef .tc main_v56) = Cert.Gcn.agg40 (F := Ideal) (y2 m c) (eS m c) (eD m c) (eN m c) := by
  show StableHlo.after hostOps3 (W5 m ρ c) (Proc.devRef .tc main_v56) = _
  after_results_simp
  rw [b5_y2, b5_src, b5_dst, b5_en]
  rfl
theorem b6_y2 : W6 m ρ c (Proc.devRef .tc main_v43) = y2 m c := by
  show StableHlo.after hostOps3 (W5 m ρ c) (Proc.devRef .tc main_v43) = _
  after_results_simp; exact b5_y2 m ρ c
theorem b6_sn : W6 m ρ c (Proc.devRef .tc main_v27) = shapeCast S100000x1 (eW m c) shapeCasts_S100000_S100000x1 := by
  show StableHlo.after hostOps3 (W5 m ρ c) (Proc.devRef .tc main_v27) = _
  after_results_simp; exact b5_sn m ρ c
theorem b6_b2 : W6 m ρ c (Proc.devRef .tc main_arg5) = aB2 m c := by
  show StableHlo.after hostOps3 (W5 m ρ c) (Proc.devRef .tc main_arg5) = _
  after_results_simp; exact b5_b2 m ρ c

/-! ## Boundary 7: after region 3, the result -/

/-- The result array at the last boundary is the network of the launched arguments. -/
theorem result : W7 m ρ c (Proc.devRef .tc main_v57)
    = Cert.Gcn.out (F := Ideal) (aX m c) (aE m c) (aW1 m c) (aB1 m c) (aW2 m c) (aB2 m c) :=
  (W7_arr m ρ c 4).trans ((Cert.KernelIdeal.Reg3.final (V6 m ρ) c (eW m c)
      (fun P => (congrFun (b6_sn m ρ c) (ix2 P (0 : Fin 1))).trans (col_entry (eW m c) P))).trans (by
    rw [show V6 m ρ c main_v56 = _ from b6_agg m ρ c, show V6 m ρ c main_v43 = _ from b6_y2 m ρ c,
      show V6 m ρ c main_arg5 = _ from b6_b2 m ρ c]
    rfl))

end Cert.KernelIdeal.Walk

end
-- ==== Proof.lean ====
/-
  A two-layer graph convolution on 100000 nodes with 128 features, 128 hidden units and 40 classes, over 1600000
  edges: the kernel program against its plain reference, as extended reals.

  Both programs compute, from the edge list alone, deg = 1 + in-degree, r = deg^(-1/2), the edge weights
  r[s]·r[d] and the node weights r·r, with the same host operations. A layer is
      conv(Y) = (scatter-add along d of Y[s]·w_edge  +  Y·w_self) + b,   Y = (features)·W,
  and the network is conv₂(relu(conv₁(x·W₁))·W₂).

  The kernel program runs the two products and the two combinations (agg + Y·w_self) + b (the first followed by
  max · 0) as four pipelined kernels over 20 blocks of 5000 rows, and the gather and scatter-add between them on the
  host; the reference runs everything on the host. At the exact values a change of float format is the identity,
  so the kernel's products of narrowed operands into a zero accumulator are the exact sums ∑ κ, X(i, κ)·W(κ, j) the
  host's products are; a row block of a product or of a combination is computed from the same rows of its operands
  (Region0 … Region3), the blocks tile the rows, and so each kernel leaves in its result array the whole-array
  expression the reference applies at that place. Everything between the kernels is the same host operation on
  both sides applied to equal arrays (Walk). No law of arithmetic is used beyond reading a sum and a broadcast at
  an index, so the precondition (finite inputs) is never opened.

  The frames: the kernel programs' are the generated frame certificates; the reference's is its generated run with
  the result dropped. The idealization rewrote no operation, so `preserves` is `True`.
-/
import proofs.«130058_j61048665145867_1_alg».proof.Defs
import proofs.«130058_j61048665145867_1_alg».proof.Proof.Gen.Kernel
import proofs.«130058_j61048665145867_1_alg».proof.Proof.Gen.Kernel.Frame
import proofs.«130058_j61048665145867_1_alg».proof.Proof.Gen.KernelIdeal
import proofs.«130058_j61048665145867_1_alg».proof.Proof.Gen.KernelIdeal.Frame
import proofs.«130058_j61048665145867_1_alg».proof.Proof.Gen.ReferenceIdeal
import proofs.«130058_j61048665145867_1_alg».proof.Proof.Gen.ReferenceIdeal.Run
import proofs.«130058_j61048665145867_1_alg».proof.Proof.Gen.Pre_finite_inputs
import proofs.«130058_j61048665145867_1_alg».proof.Proof.Spec
import proofs.«130058_j61048665145867_1_alg».proof.Proof.RunValue
import proofs.«130058_j61048665145867_1_alg».proof.Proof.Walk
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the (agreeing) arguments in their result arrays. -/
theorem algebraic : Cert.algebraic_KernelIdeal_ReferenceIdeal := by
  intro m ρ m' ρ' _ hagree
  refine ⟨fun c => Cert.Gcn.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Walk.result m ρ c), (h c).2⟩)
      (Cert.KernelIdeal.GenRun.run (F := Ideal) m ρ)
  · refine (θ_run Cert.ReferenceIdeal.defs _ _).mono (fun r h c => ⟨(h c).1.trans ?_, (h c).2⟩)
      (Cert.ReferenceIdeal.Value.run (F := Ideal) m' ρ')
    rw [Cert.Gcn.ref_eq, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
